-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v23)) (v1 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_v24) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x5 : Shape := ⟨2, ![1000000, 5]⟩
abbrev S500000x5 : Shape := ⟨2, ![500000, 5]⟩
abbrev S10000000 : Shape := ⟨1, ![10000000]⟩
abbrev S_ : Shape := ⟨0, ![]⟩

class Facts : Prop where
  bcast_S_S1000000x5 : S_.BroadcastsInDim S1000000x5 (![] : Fin 0 → Fin S1000000x5.rank)
  reducesTo_S1000000x5_S_d0_1 : S1000000x5.ReducesTo [0, 1] S_
  h_S_ : 0 < S_.numel
  bcast_S_S500000x5 : S_.BroadcastsInDim S500000x5 (![] : Fin 0 → Fin S500000x5.rank)
  reducesTo_S500000x5_S_d0_1 : S500000x5.ReducesTo [0, 1] S_
  bcast_S_S10000000 : S_.BroadcastsInDim S10000000 (![] : Fin 0 → Fin S10000000.rank)
  reducesTo_S10000000_S_d0 : S10000000.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S1000000x5 .f32) (main_arg1 : FVec F S500000x5 .f32) (main_arg2 : IVec S10000000 32) (main_arg3 : IVec S10000000 32) : IVec S_ 1 :=
  let main_v0 : FVec F S1000000x5 .f32 := Host.absf main_arg0
  let main_cst : FVec F S_ .f32 := constant S_ .f32 0x7F800000#32
  let main_v1 : FVec F S1000000x5 .f32 := broadcastInDim S1000000x5 ![] bcast_S_S1000000x5 main_cst
  let main_v2 : IVec S1000000x5 1 := cmpf .olt main_v0 main_v1
  let main_c : IVec S_ 1 := constantI S_ 1 1#1
  let main_v3 : IVec S_ 1 := (fun x v => Host.reduce IntOp.andi x v reducesTo_S1000000x5_S_d0_1 h_S_) main_v2 main_c
  let main_v4 : FVec F S500000x5 .f32 := Host.absf main_arg1
  let main_cst_0 : FVec F S_ .f32 := constant S_ .f32 0x7F800000#32
  let main_v5 : FVec F S500000x5 .f32 := broadcastInDim S500000x5 ![] bcast_S_S500000x5 main_cst_0
  let main_v6 : IVec S500000x5 1 := cmpf .olt main_v4 main_v5
  let main_c_1 : IVec S_ 1 := constantI S_ 1 1#1
  let main_v7 : IVec S_ 1 := (fun x v => Host.reduce IntOp.andi x v reducesTo_S500000x5_S_d0_1 h_S_) main_v6 main_c_1
  let main_v8 : IVec S_ 1 := andi main_v3 main_v7
  let main_c_2 : IVec S_ 32 := constantI S_ 32 0#32
  let main_v9 : IVec S10000000 32 := broadcastInDim S10000000 ![] bcast_S_S10000000 main_c_2
  let main_v10 : IVec S10000000 1 := cmpi .sge main_arg2 main_v9
  let main_c_3 : IVec S_ 1 := constantI S_ 1 1#1
  let main_v11 : IVec S_ 1 := (fun x v => Host.reduce IntOp.andi x v reducesTo_S10000000_S_d0 h_S_) main_v10 main_c_3
  let main_v12 : IVec S_ 1 := andi main_v8 main_v11
  let main_c_4 : IVec S_ 32 := constantI S_ 32 0#32
  let main_v13 : IVec S10000000 32 := broadcastInDim S10000000 ![] bcast_S_S10000000 main_c_4
  let main_v14 : IVec S10000000 1 := cmpi .sge main_arg3 main_v13
  let main_c_5 : IVec S_ 1 := constantI S_ 1 1#1
  let main_v15 : IVec S_ 1 := (fun x v => Host.reduce IntOp.andi x v reducesTo_S10000000_S_d0 h_S_) main_v14 main_c_5
  fn_part1 (F := F) main_v12 main_v15
-- ==== Kernel.lean ====
abbrev S1000000x5 : Shape := ⟨2, ![1000000, 5]⟩
abbrev S500000x5 : Shape := ⟨2, ![500000, 5]⟩
abbrev S10000000 : Shape := ⟨1, ![10000000]⟩
abbrev S_ : Shape := ⟨0, ![]⟩
abbrev S10000000x1 : Shape := ⟨2, ![10000000, 1]⟩
abbrev S10000000x2 : Shape := ⟨2, ![10000000, 2]⟩
abbrev S10000000x3 : Shape := ⟨2, ![10000000, 3]⟩
abbrev S3x10000000 : Shape := ⟨2, ![3, 10000000]⟩
abbrev S1x10000000 : Shape := ⟨2, ![1, 10000000]⟩
abbrev S3x16000 : Shape := ⟨2, ![3, 16000]⟩
abbrev S1x16000 : Shape := ⟨2, ![1, 16000]⟩
abbrev S16000 : Shape := ⟨1, ![16000]⟩

abbrev nBuf : Space → Nat
  | .hbm => 50
  | .vmem => 8
  | .smem => 0
  | _ => 0

abbrev bufTy : (tb : Table) → Fin (tcTables nBuf tb) → BufTy
  | .hbm, ⟨0, _⟩ => ⟨S1000000x5, .f32⟩
  | .hbm, ⟨1, _⟩ => ⟨S500000x5, .f32⟩
  | .hbm, ⟨2, _⟩ => ⟨S10000000, .i32⟩
  | .hbm, ⟨3, _⟩ => ⟨S10000000, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S10000000, .i32⟩
  | .hbm, ⟨8, _⟩ => ⟨S10000000, .i32⟩
  | .hbm, ⟨9, _⟩ => ⟨S_, .i32⟩
  | .hbm, ⟨10, _⟩ => ⟨S10000000, .i32⟩
  | .hbm, ⟨11, _⟩ => ⟨S10000000, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S10000000, .i32⟩
  | .hbm, ⟨16, _⟩ => ⟨S10000000, .i32⟩
  | .hbm, ⟨17, _⟩ => ⟨S_, .i32⟩
  | .hbm, ⟨18, _⟩ => ⟨S10000000, .i32⟩
  | .hbm, ⟨19, _⟩ => ⟨S10000000, .i32⟩
  | .hbm, ⟨20, _⟩ => ⟨S_, .i32⟩
  | .hbm, ⟨21, _⟩ => ⟨S10000000, .i32⟩
  | .hbm, ⟨22, _⟩ => ⟨S10000000, .i1⟩
  | .hbm, ⟨23, _⟩ => ⟨S_, .i32⟩
  | .hbm, ⟨24, _⟩ => ⟨S10000000, .i32⟩
  | .hbm, ⟨25, _⟩ => ⟨S10000000, .i32⟩
  | .hbm, ⟨26, _⟩ => ⟨S10000000, .i32⟩
  | .hbm, ⟨27, _⟩ => ⟨S10000000x1, .i32⟩
  | .hbm, ⟨28, _⟩ => ⟨S_, .i32⟩
  | .hbm, ⟨29, _⟩ => ⟨S10000000x1, .i32⟩
  | .hbm, ⟨30, _⟩ => ⟨S10000000x2, .i32⟩
  | .hbm, ⟨31, _⟩ => ⟨S10000000x3, .f32⟩
  | .hbm, ⟨32, _⟩ => ⟨S_, .i32⟩
  | .hbm, ⟨33, _⟩ => ⟨S10000000, .i32⟩
  | .hbm, ⟨34, _⟩ => ⟨S10000000, .i1⟩
  | .hbm, ⟨35, _⟩ => ⟨S_, .i32⟩
  | .hbm, ⟨36, _⟩ => ⟨S10000000, .i32⟩
  | .hbm, ⟨37, _⟩ => ⟨S10000000, .i32⟩
  | .hbm, ⟨38, _⟩ => ⟨S10000000, .i32⟩
  | .hbm, ⟨39, _⟩ => ⟨S10000000x1, .i32⟩
  | .hbm, ⟨40, _⟩ => ⟨S_, .i32⟩
  | .hbm, ⟨41, _⟩ => ⟨S10000000x1, .i32⟩
  | .hbm, ⟨42, _⟩ => ⟨S10000000x2, .i32⟩
  | .hbm, ⟨43, _⟩ => ⟨S10000000x3, .f32⟩
  | .hbm, ⟨44, _⟩ => ⟨S3x10000000, .f32⟩
  | .hbm, ⟨45, _⟩ => ⟨S3x10000000, .f32⟩
  | .hbm, ⟨46, _⟩ => ⟨S3x10000000, .f32⟩
  | .hbm, ⟨47, _⟩ => ⟨S1x10000000, .f32⟩
  | .hbm, ⟨48, _⟩ => ⟨S10000000x3, .f32⟩
  | .hbm, ⟨49, _⟩ => ⟨S10000000, .f32⟩
  | .local _ .vmem, ⟨0, _⟩ => ⟨S3x16000, .f32⟩
  | .local _ .vmem, ⟨1, _⟩ => ⟨S3x16000, .f32⟩
  | .local _ .vmem, ⟨2, _⟩ => ⟨S3x16000, .f32⟩
  | .local _ .vmem, ⟨3, _⟩ => ⟨S3x16000, .f32⟩
  | .local _ .vmem, ⟨4, _⟩ => ⟨S3x16000, .f32⟩
  | .local _ .vmem, ⟨5, _⟩ => ⟨S3x16000, .f32⟩
  | .local _ .vmem, ⟨6, _⟩ => ⟨S1x16000, .f32⟩
  | .local _ .vmem, ⟨7, _⟩ => ⟨S1x16000, .f32⟩
  | _, _ => ⟨S1000000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_c_1 : Ref sig .tc := ⟨.hbm, 12, rfl⟩
abbrev main_c_2 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_v1 : Ref sig .tc := ⟨.hbm, 19, rfl⟩
abbrev main_c_3 : Ref sig .tc := ⟨.hbm, 20, rfl⟩
abbrev main_v2 : Ref sig .tc := ⟨.hbm, 21, rfl⟩
abbrev main_v3 : Ref sig .tc := ⟨.hbm, 22, rfl⟩
abbrev main_c_4 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_c_5 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_c_6 : Ref sig .tc := ⟨.hbm, 32, rfl⟩
abbrev main_v11 : Ref sig .tc := ⟨.hbm, 33, rfl⟩
abbrev main_v12 : Ref sig .tc := ⟨.hbm, 34, rfl⟩
abbrev main_c_7 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_c_8 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22_0 : Ref sig .tc := ⟨.hbm, 46, rfl⟩
abbrev main_v22_1 : Ref sig .tc := ⟨.hbm, 47, rfl⟩
abbrev main_v23 : Ref sig .tc := ⟨.hbm, 48, rfl⟩
abbrev main_v24 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![625], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x16000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x16000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x16000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S10000000 : S_.BroadcastsInDim S10000000 (![] : Fin 0 → Fin S10000000.rank)
  bcast_S10000000_S10000000x1_0 : S10000000.BroadcastsInDim S10000000x1 (![0] : Fin 1 → Fin S10000000x1.rank)
  bcast_S_S10000000x1 : S_.BroadcastsInDim S10000000x1 (![] : Fin 0 → Fin S10000000x1.rank)
  concatenates_S10000000x1_S10000000x1_S10000000x2_d1 : Shape.Concatenates [S10000000x1, S10000000x1] S10000000x2 1
  transposes_S10000000x3_S3x10000000_1_0 : S10000000x3.Transposes [1, 0] S3x10000000
  inb_S3x16000_S3x16000_0_0 : ∀ a, (![0, 0] : Fin 2 → Nat) a + S3x16000.size a ≤ S3x16000.size a
  h_S3x16000 : 0 < S3x16000.numel
  shapeCasts_S3x16000_S3x16000 : S3x16000.ShapeCasts S3x16000
  reduces_S3x16000_S16000 : S3x16000.Reduces [0] S16000
  inb_S1x16000_S1x16000_0_0 : ∀ a, (![0, 0] : Fin 2 → Nat) a + S1x16000.size a ≤ S1x16000.size a
  h_S1x16000 : 0 < S1x16000.numel
  shapeCasts_S1x16000_S16000 : S1x16000.ShapeCasts S16000
  shapeCasts_S16000_S1x16000 : S16000.ShapeCasts S1x16000
  transposes_S3x10000000_S10000000x3_1_0 : S3x10000000.Transposes [1, 0] S10000000x3
  shapeCasts_S1x10000000_S10000000 : S1x10000000.ShapeCasts S10000000
  gather_S1000000x5_S10000000x2_S10000000x3_1_0_n_n_01_1_13_wf : GatherDims.WF S1000000x5 S10000000x2 S10000000x3 [1] [0] [] [0, 1] [] 1 ![1, 3]
  gather_S500000x5_S10000000x2_S10000000x3_1_0_n_n_01_1_13_wf : GatherDims.WF S500000x5 S10000000x2 S10000000x3 [1] [0] [] [0, 1] [] 1 ![1, 3]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x16000.size a ≤ S3x10000000.size a
  hwx0_0 : ∀ i : grid0.Coords, EltTy.bits .f32 = 32 ∨ (Rect.block (s := S3x10000000) S3x16000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x16000.size a ≤ S3x10000000.size a
  hwx0_1 : ∀ i : grid0.Coords, EltTy.bits .f32 = 32 ∨ (Rect.block (s := S3x10000000) S3x16000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3x16000.size a ≤ S3x10000000.size a
  hwx0_2 : ∀ i : grid0.Coords, EltTy.bits .f32 = 32 ∨ (Rect.block (s := S3x10000000) S3x16000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16000.size a ≤ S1x10000000.size a
  hwx0_3 : ∀ i : grid0.Coords, EltTy.bits .f32 = 32 ∨ (Rect.block (s := S1x10000000) S1x16000.size (cc0_transform_3 i) (hinb0_3 i)).WholeWords (EltTy.packing .f32)

variable [Facts₀]

def gather_S1000000x5_S10000000x2_S10000000x3_1_0_n_n_01_1_13 : GatherDims S1000000x5 S10000000x2 S10000000x3 where
  offsetDims := [1]
  collapsedSliceDims := [0]
  operandBatchingDims := []
  startIndicesBatchingDims := []
  startIndexMap := [0, 1]
  indexVectorDim := 1
  sliceSizes := ![1, 3]
  wf := gather_S1000000x5_S10000000x2_S10000000x3_1_0_n_n_01_1_13_wf
def gather_S500000x5_S10000000x2_S10000000x3_1_0_n_n_01_1_13 : GatherDims S500000x5 S10000000x2 S10000000x3 where
  offsetDims := [1]
  collapsedSliceDims := [0]
  operandBatchingDims := []
  startIndicesBatchingDims := []
  startIndexMap := [0, 1]
  indexVectorDim := 1
  sliceSizes := ![1, 3]
  wf := gather_S500000x5_S10000000x2_S10000000x3_1_0_n_n_01_1_13_wf

abbrev win0_0 : Pipeline.Window sig grid0 :=
  Pipeline.Window.ofSpec (Memref.whole main_v20) S3x16000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S3x16000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22_0) S3x16000.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22_1) S1x16000.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1000000x5 : Shape := ⟨2, ![1000000, 5]⟩
abbrev S500000x5 : Shape := ⟨2, ![500000, 5]⟩
abbrev S10000000 : Shape := ⟨1, ![10000000]⟩
abbrev S_ : Shape := ⟨0, ![]⟩
abbrev S10000000x1 : Shape := ⟨2, ![10000000, 1]⟩
abbrev S10000000x2 : Shape := ⟨2, ![10000000, 2]⟩
abbrev S10000000x3 : Shape := ⟨2, ![10000000, 3]⟩

abbrev nBuf : Space → Nat
  | .hbm => 31
  | .vmem => 0
  | .smem => 0
  | _ => 0

abbrev bufTy : (tb : Table) → Fin (tcTables nBuf tb) → BufTy
  | .hbm, ⟨0, _⟩ => ⟨S1000000x5, .f32⟩
  | .hbm, ⟨1, _⟩ => ⟨S500000x5, .f32⟩
  | .hbm, ⟨2, _⟩ => ⟨S10000000, .i32⟩
  | .hbm, ⟨3, _⟩ => ⟨S10000000, .i32⟩
  | .hbm, ⟨4, _⟩ => ⟨S_, .i32⟩
  | .hbm, ⟨5, _⟩ => ⟨S10000000, .i32⟩
  | .hbm, ⟨6, _⟩ => ⟨S10000000, .i1⟩
  | .hbm, ⟨7, _⟩ => ⟨S_, .i32⟩
  | .hbm, ⟨8, _⟩ => ⟨S10000000, .i32⟩
  | .hbm, ⟨9, _⟩ => ⟨S10000000, .i32⟩
  | .hbm, ⟨10, _⟩ => ⟨S10000000, .i32⟩
  | .hbm, ⟨11, _⟩ => ⟨S10000000x1, .i32⟩
  | .hbm, ⟨12, _⟩ => ⟨S_, .i32⟩
  | .hbm, ⟨13, _⟩ => ⟨S10000000x1, .i32⟩
  | .hbm, ⟨14, _⟩ => ⟨S10000000x2, .i32⟩
  | .hbm, ⟨15, _⟩ => ⟨S10000000x3, .f32⟩
  | .hbm, ⟨16, _⟩ => ⟨S_, .i32⟩
  | .hbm, ⟨17, _⟩ => ⟨S10000000, .i32⟩
  | .hbm, ⟨18, _⟩ => ⟨S10000000, .i1⟩
  | .hbm, ⟨19, _⟩ => ⟨S_, .i32⟩
  | .hbm, ⟨20, _⟩ => ⟨S10000000, .i32⟩
  | .hbm, ⟨21, _⟩ => ⟨S10000000, .i32⟩
  | .hbm, ⟨22, _⟩ => ⟨S10000000, .i32⟩
  | .hbm, ⟨23, _⟩ => ⟨S10000000x1, .i32⟩
  | .hbm, ⟨24, _⟩ => ⟨S_, .i32⟩
  | .hbm, ⟨25, _⟩ => ⟨S10000000x1, .i32⟩
  | .hbm, ⟨26, _⟩ => ⟨S10000000x2, .i32⟩
  | .hbm, ⟨27, _⟩ => ⟨S10000000x3, .f32⟩
  | .hbm, ⟨28, _⟩ => ⟨S10000000x3, .f32⟩
  | .hbm, ⟨29, _⟩ => ⟨S_, .f32⟩
  | .hbm, ⟨30, _⟩ => ⟨S10000000, .f32⟩
  | _, _ => ⟨S1000000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_c_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩

abbrev nD : Nat := 1
abbrev τ : Topo := Topo.v7x

variable {F : FTy → Type} [FloatOps F]

class Facts₀ : Prop where
  bcast_S_S10000000 : S_.BroadcastsInDim S10000000 (![] : Fin 0 → Fin S10000000.rank)
  bcast_S10000000_S10000000x1_0 : S10000000.BroadcastsInDim S10000000x1 (![0] : Fin 1 → Fin S10000000x1.rank)
  bcast_S_S10000000x1 : S_.BroadcastsInDim S10000000x1 (![] : Fin 0 → Fin S10000000x1.rank)
  concatenates_S10000000x1_S10000000x1_S10000000x2_d1 : Shape.Concatenates [S10000000x1, S10000000x1] S10000000x2 1
  reducesTo_S10000000x3_S10000000_d1 : S10000000x3.ReducesTo [1] S10000000
  h_S_ : 0 < S_.numel
  gather_S1000000x5_S10000000x2_S10000000x3_1_0_n_n_01_1_13_wf : GatherDims.WF S1000000x5 S10000000x2 S10000000x3 [1] [0] [] [0, 1] [] 1 ![1, 3]
  gather_S500000x5_S10000000x2_S10000000x3_1_0_n_n_01_1_13_wf : GatherDims.WF S500000x5 S10000000x2 S10000000x3 [1] [0] [] [0, 1] [] 1 ![1, 3]

variable [Facts₀]

def gather_S1000000x5_S10000000x2_S10000000x3_1_0_n_n_01_1_13 : GatherDims S1000000x5 S10000000x2 S10000000x3 where
  offsetDims := [1]
  collapsedSliceDims := [0]
  operandBatchingDims := []
  startIndicesBatchingDims := []
  startIndexMap := [0, 1]
  indexVectorDim := 1
  sliceSizes := ![1, 3]
  wf := gather_S1000000x5_S10000000x2_S10000000x3_1_0_n_n_01_1_13_wf
def gather_S500000x5_S10000000x2_S10000000x3_1_0_n_n_01_1_13 : GatherDims S500000x5 S10000000x2 S10000000x3 where
  offsetDims := [1]
  collapsedSliceDims := [0]
  operandBatchingDims := []
  startIndicesBatchingDims := []
  startIndexMap := [0, 1]
  indexVectorDim := 1
  sliceSizes := ![1, 3]
  wf := gather_S500000x5_S10000000x2_S10000000x3_1_0_n_n_01_1_13_wf

class Facts : Prop extends Facts₀ where

variable [Facts]
-- ==== Proof.PreDecode.lean ====
/-
  The precondition, read back: every index word of both index arrays is non-negative (signed).

  The stated precondition is the conjunction of four `jnp.all`s: the two tables finite, `u_idx ≥ 0` and
  `v_idx ≥ 0` everywhere. Only the last two are used: an `all` that came out true had a true at every
  element, and the element test is the signed comparison `word ≥ 0`.
-/
import proofs.«418666_j46059229282319_4_alg».proof.Pre_finite_inputs
import Idealize.ShloMosaic.Lib.ReduceAll
import Idealize.ShloMosaic.Lib.ValueIdx

noncomputable section

namespace Cert.PreDecode

open Idealize.ShloMosaic Idealize.ShloMosaic.ValueIdx Cert.Pre_finite_inputs

variable {F : FTy → Type} [FloatOps F] [Cert.Pre_finite_inputs.Facts]

instance : Subsingleton S_.Idx := ⟨fun _ _ => funext fun d => d.elim0⟩

/-- Where the precondition holds, every word of `u_idx` and of `v_idx` passes the test `word ≥ 0`. -/
theorem idx_nonneg (a0 : FVec F S1000000x5 .f32) (a1 : FVec F S500000x5 .f32) (a2 a3 : IVec S10000000 32)
    (h : Cert.Pre_finite_inputs.fn (F := F) a0 a1 a2 a3 = fun _ => 1#1) :
    (∀ i : S10000000.Idx, IntOp.cmpi .sge (a2 i) 0#32 = 1#1) ∧ (∀ i : S10000000.Idx, IntOp.cmpi .sge (a3 i) 0#32 = 1#1) := by
  have h1 := congrFun h ix0
  dsimp only [Cert.Pre_finite_inputs.fn, Cert.Pre_finite_inputs.fn_part1] at h1
  obtain ⟨h12, h15⟩ := IntOp.andi_eq_one.1 h1
  obtain ⟨-, h11⟩ := IntOp.andi_eq_one.1 h12
  exact ⟨fun i => Host.reduce_andi_all _ _ _ _ _ h11 i, fun i => Host.reduce_andi_all _ _ _ _ _ h15 i⟩

end Cert.PreDecode

end
-- ==== Proof.LibGatherRowSlice.lean ====
/-
  A gather of a short slice out of each chosen row of a rank-2 table, read at an index.

  Table `[N, C]`, start indices `[E, 2]` (a row number and a starting column per result row), result
  `[E, K]`: result element `(e, k)` is the table's `(r, c₀ + k)`, where `r` is the word `idx[e, 0]` read
  as a signed integer and clamped into `[0, N - 1]`, and `c₀` is the word `idx[e, 1]` read signed and
  clamped into `[0, C - K]`, so that the `K` columns fit. This is what `x[rows, :K]` computes: the
  starting column is then the constant `0`.
-/
import Idealize.ShloMosaic.PureOps
import Idealize.ShloMosaic.Lib.ValueIdx

noncomputable section

namespace Idealize.ShloMosaic.RowSliceGather

open Idealize.ShloMosaic Idealize.ShloMosaic.ValueIdx

variable {α : Type}

/-- The dimension numbers: one collapsed row axis, one offset axis of `K` columns, a start index of two
    components `(row, column)` stored along the last axis of the index array. -/
abbrev dims (N C E K : Nat)
    (wf : GatherDims.WF ⟨2, ![N, C]⟩ ⟨2, ![E, 2]⟩ ⟨2, ![E, K]⟩ [1] [0] [] [0, 1] [] 1 ![1, K]) :
    GatherDims ⟨2, ![N, C]⟩ ⟨2, ![E, 2]⟩ ⟨2, ![E, K]⟩ where
  offsetDims := [1]
  collapsedSliceDims := [0]
  operandBatchingDims := []
  startIndicesBatchingDims := []
  startIndexMap := [0, 1]
  indexVectorDim := 1
  sliceSizes := ![1, K]
  wf := wf

/-- The row a start word names: read signed, clamped into `[0, N - 1]`. -/
def rowOf (N : Nat) (hN : 0 < N) {w : Nat} (v : BitVec w) : Fin N :=
  ⟨min v.toInt.toNat (N - 1), by omega⟩

/-- The column `k` columns past the start word's, the start read signed and clamped into `[0, C - K]`. -/
def colOf (C K : Nat) (hK : K ≤ C) {w : Nat} (v : BitVec w) (k : Fin K) : Fin C :=
  ⟨min v.toInt.toNat (C - K) + k.val, by have := k.isLt; omega⟩

/-- THE GATHER READ AT `(e, k)`. -/
theorem gather_apply {N C E K w : Nat} (hN : 0 < N) (hK : K ≤ C)
    (wf : GatherDims.WF ⟨2, ![N, C]⟩ ⟨2, ![E, 2]⟩ ⟨2, ![E, K]⟩ [1] [0] [] [0, 1] [] 1 ![1, K])
    (x : (⟨2, ![N, C]⟩ : Shape).Idx → α) (idx : IVec ⟨2, ![E, 2]⟩ w) (e : Fin E) (k : Fin K) :
    Host.gather (dims N C E K wf) x idx (ix2 e k)
      = x (ix2 (rowOf N hN (idx (ix2 e (0 : Fin 2)))) (colOf C K hK (idx (ix2 e (1 : Fin 2))) k)) := by
  unfold Host.gather
  congr 1
  funext a
  refine Fin.ext ?_
  match a with
  | ⟨0, _⟩ =>
    show (dims N C E K wf).start (ix2 e k) idx 0 + (dims N C E K wf).batchCoord (ix2 e k) 0
      + (dims N C E K wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (dims N C E K wf).startIndexMap from List.mem_cons_self)]
    have hsi : (dims N C E K wf).siIdx (ix2 e k) ⟨List.idxOf (0 : Fin 2) (dims N C E K wf).startIndexMap,
        List.idxOf_lt_length_iff.2 List.mem_cons_self⟩ = ix2 e (0 : Fin 2) := by
      funext b; refine Fin.ext ?_
      match b with
      | ⟨0, _⟩ => rfl
      | ⟨1, _⟩ => rfl
    rw [hsi]
    rfl
  | ⟨1, _⟩ =>
    show (dims N C E K wf).start (ix2 e k) idx 1 + (dims N C E K wf).batchCoord (ix2 e k) 1
      + (dims N C E K wf).offCoord (ix2 e k) 1 = _
    rw [GatherDims.batchCoord_eq_zero _ _ _ List.not_mem_nil]
    simp only [Nat.add_zero]
    unfold GatherDims.start
    rw [dif_pos (show (1 : Fin 2) ∈ (dims N C E K wf).startIndexMap from List.mem_cons_of_mem _ List.mem_cons_self)]
    have hsi : (dims N C E K wf).siIdx (ix2 e k) ⟨List.idxOf (1 : Fin 2) (dims N C E K wf).startIndexMap,
        List.idxOf_lt_length_iff.2 (List.mem_cons_of_mem _ List.mem_cons_self)⟩ = ix2 e (1 : Fin 2) := by
      funext b; refine Fin.ext ?_
      match b with
      | ⟨0, _⟩ => rfl
      | ⟨1, _⟩ => rfl
    rw [hsi]
    unfold GatherDims.offCoord
    rw [dif_pos ((GatherDims.mem_sKept _ _).mpr ⟨(by decide : (1 : Fin 2) ∉ [(0 : Fin 2)]), List.not_mem_nil⟩)]
    rfl

end Idealize.ShloMosaic.RowSliceGather

end
-- ==== Proof.IndexWords.lean ====
/-
  The two index pipelines, word by word.

  Both programs turn a signed 32-bit index word `v` into a row of a table of `N` rows. The reference
  normalises a negative word by adding `N` and lets the gather clamp the result into `[0, N - 1]`; the
  kernel first clips `v` into `[0, N - 1]`, then does the same. On a NON-NEGATIVE word both are the plain
  clamp `min v (N - 1)`: the normalisation does nothing to a non-negative word, and clipping before
  clamping changes nothing. (On a word in `[-N, -1]` they differ: row `v + N` against row `0`.)
-/
import proofs.«418666_j46059229282319_4_alg».proof.Proof.LibGatherRowSlice

noncomputable section

namespace Cert.IndexWords

open Idealize.ShloMosaic Idealize.ShloMosaic.RowSliceGather

/-- jnp's normalisation of an index word against the extent `n`: a negative word has `n` added. -/
def wrapWord (n v : BitVec 32) : BitVec 32 :=
  Scalar.select (IntOp.cmpi .slt v 0#32) (IntOp.addi v n) v

/-- `jnp.clip(v, 0, hi)` as it lowers: the larger of `0` and `v`, then the smaller of `hi` and that. -/
def clipWord (hi v : BitVec 32) : BitVec 32 :=
  IntOp.minsi hi (IntOp.maxsi 0#32 v)

private theorem toInt_zero32 : (0#32 : BitVec 32).toInt = 0 := by decide

/-- The precondition's test `v ≥ 0` (signed) read as a fact about the integer the word denotes. -/
theorem nonneg_of_sge (v : BitVec 32) (h : IntOp.cmpi .sge v 0#32 = 1#1) : 0 ≤ v.toInt := by
  have hs : (0#32 : BitVec 32).sle v = true := by
    cases hb : (0#32 : BitVec 32).sle v with
    | true => rfl
    | false =>
      have e : IntOp.cmpi .sge v 0#32 = 0#1 := by
        show BitVec.ofBool ((0#32 : BitVec 32).sle v) = 0#1
        rw [hb]; rfl
      rw [e] at h
      exact absurd h (by decide)
  rw [BitVec.sle_iff_toInt_le, toInt_zero32] at hs
  exact hs

private theorem slt_zero_false (v : BitVec 32) (hv : 0 ≤ v.toInt) : v.slt 0#32 = false := by
  rw [BitVec.slt_eq_decide, toInt_zero32]
  exact decide_eq_false (by omega)

/-- A non-negative word is its own normalisation. -/
theorem wrapWord_of_nonneg (n v : BitVec 32) (hv : 0 ≤ v.toInt) : wrapWord n v = v := by
  show (if BitVec.ofBool (v.slt 0#32) = 1 then v + n else v) = v
  rw [slt_zero_false v hv]
  rfl

/-- Clipping a non-negative word only applies the upper bound. -/
theorem clipWord_of_nonneg (hi v : BitVec 32) (hv : 0 ≤ v.toInt) :
    clipWord hi v = if hi.slt v then hi else v := by
  show (if hi.slt (if v.slt 0#32 then 0#32 else v) then hi else (if v.slt 0#32 then 0#32 else v)) = _
  rw [slt_zero_false v hv]
  rfl

/-- The clipped word denotes the smaller of the two integers. -/
theorem clipWord_toInt (hi v : BitVec 32) (hv : 0 ≤ v.toInt) :
    (clipWord hi v).toInt = min hi.toInt v.toInt := by
  rw [clipWord_of_nonneg hi v hv]
  by_cases h : hi.slt v = true
  · rw [if_pos h]
    rw [BitVec.slt_iff_toInt_lt] at h
    omega
  · rw [if_neg h]
    have h' : hi.slt v = false := by simpa using h
    rw [BitVec.slt_eq_decide] at h'
    have : ¬ hi.toInt < v.toInt := of_decide_eq_false h'
    omega

/-- THE LAW. On a non-negative index word, with `hi` the last row's number, the kernel's row (clip, normalise,
    clamp) and the reference's row (normalise, clamp) are both the plain clamp of the word. -/
theorem rows_agree (N : Nat) (hN : 0 < N) (n hi v : BitVec 32) (hhi : hi.toInt = (N : Int) - 1)
    (hv : IntOp.cmpi .sge v 0#32 = 1#1) :
    rowOf N hN (wrapWord n (clipWord hi v)) = rowOf N hN v ∧ rowOf N hN (wrapWord n v) = rowOf N hN v := by
  have h0 : 0 ≤ v.toInt := nonneg_of_sge v hv
  have hc : (clipWord hi v).toInt = min hi.toInt v.toInt := clipWord_toInt hi v h0
  have hc0 : 0 ≤ (clipWord hi v).toInt := by rw [hc, hhi]; omega
  refine ⟨?_, by rw [wrapWord_of_nonneg n v h0]⟩
  rw [wrapWord_of_nonneg n _ hc0]
  refine Fin.ext ?_
  show min (clipWord hi v).toInt.toNat (N - 1) = min v.toInt.toNat (N - 1)
  rw [hc, hhi]
  omega

end Cert.IndexWords

end
-- ==== Proof.Spec.lean ====
/-
  What both programs compute, as functions of the four argument arrays.

  For pair `e` and latent dimension `k < 3`:  uv[e, k] = U[row_u e, k] · V[row_v e, k],  and
  preds[e] = uv[e, 0] + uv[e, 1] + uv[e, 2],  where `row_u e` is the index word `u_idx[e]` read as a signed
  integer and clamped into the table's rows (for a word in range: the word itself), likewise `row_v`.
  Both programs hand the gather a start-index array of pairs (row word, 0): a column of row words joined
  with a column of zeros. Read at a pair, the gather is the table's row at the clamped word, columns 0..2.
-/
import proofs.«418666_j46059229282319_4_alg».proof.Proof.IndexWords
import Idealize.ShloMosaic.Lib.Pipeline.Value
import Idealize.ShloMosaic.PureOps.Ideal.Laws

noncomputable section

open scoped BigOperators

namespace Cert.Spec

open Idealize.ShloMosaic Idealize.ShloMosaic.ValueIdx Idealize.ShloMosaic.RowSliceGather Cert.IndexWords

/-- The shapes: the pair axis `E = 10000000` alone, and with 1, 2 or 3 columns; the scalar shape. -/
abbrev SE : Shape := ⟨1, ![10000000]⟩
abbrev SE1 : Shape := ⟨2, ![10000000, 1]⟩
abbrev SE2 : Shape := ⟨2, ![10000000, 2]⟩
abbrev SE3 : Shape := ⟨2, ![10000000, 3]⟩
abbrev S0 : Shape := ⟨0, ![]⟩
abbrev SU : Shape := ⟨2, ![1000000, 5]⟩
abbrev SV : Shape := ⟨2, ![500000, 5]⟩

/-! ## The start-index array -/

/-- The gather's start indices from a vector of row words: the words as a column, a column of zeros beside it. -/
def startIdx (w : IVec SE 32) (hb1 : SE.BroadcastsInDim SE1 (![0] : Fin 1 → Fin SE1.rank))
    (hb0 : S0.BroadcastsInDim SE1 (![] : Fin 0 → Fin SE1.rank)) (hc : Shape.Concatenates [SE1, SE1] SE2 1) : IVec SE2 32 :=
  concatenate SE2 1 [⟨SE1, broadcastInDim SE1 ![0] hb1 w⟩, ⟨SE1, broadcastInDim SE1 ![] hb0 (constantI S0 32 0#32)⟩] hc

/-- Its first column holds the row words. -/
theorem startIdx_row (w : IVec SE 32) (hb1 : SE.BroadcastsInDim SE1 (![0] : Fin 1 → Fin SE1.rank))
    (hb0 : S0.BroadcastsInDim SE1 (![] : Fin 0 → Fin SE1.rank)) (hc : Shape.Concatenates [SE1, SE1] SE2 1)
    (e : Fin 10000000) : startIdx w hb1 hb0 hc (ix2 e (0 : Fin 2)) = w (ix1 e) := by
  unfold startIdx
  refine (concatenate_pair_apply_left (t := SE2) (s₁ := SE1) (s₂ := SE1) (1 : Fin 2) (broadcastInDim SE1 ![0] hb1 w)
    (broadcastInDim SE1 ![] hb0 (constantI S0 32 0#32)) hc (ix2 e (0 : Fin 2)) rfl (ix2 e (0 : Fin 1))
    (fun b => by match b with | ⟨0, _⟩ => rfl | ⟨1, _⟩ => rfl)).trans ?_
  exact broadcastInDim_apply _ hb1 w _ (ix1 e) (fun a => by
    match a with
    | ⟨0, _⟩ => show e.val = if (10000000 : Nat) = 1 then 0 else e.val; rw [if_neg (by decide)])

/-- Its second column is zero. -/
theorem startIdx_col (w : IVec SE 32) (hb1 : SE.BroadcastsInDim SE1 (![0] : Fin 1 → Fin SE1.rank))
    (hb0 : S0.BroadcastsInDim SE1 (![] : Fin 0 → Fin SE1.rank)) (hc : Shape.Concatenates [SE1, SE1] SE2 1)
    (e : Fin 10000000) : startIdx w hb1 hb0 hc (ix2 e (1 : Fin 2)) = 0#32 := by
  unfold startIdx
  refine (concatenate_pair_apply_right (t := SE2) (s₁ := SE1) (s₂ := SE1) (1 : Fin 2) (broadcastInDim SE1 ![0] hb1 w)
    (broadcastInDim SE1 ![] hb0 (constantI S0 32 0#32)) hc (ix2 e (1 : Fin 2)) rfl rfl (ix2 e (0 : Fin 1))
    (fun b hb => by
      match b with
      | ⟨0, _⟩ => rfl
      | ⟨1, _⟩ => exact absurd rfl hb)
    rfl).trans ?_
  exact broadcastInDim_apply _ hb0 (constantI S0 32 0#32) _ ix0 (fun a => a.elim0)

/-! ## A table's rows gathered at a vector of row words -/

/-- Row `e` of the result is columns 0, 1, 2 of the table's row named by word `e` (read signed, clamped). -/
def gatherRows {α : Type} (N : Nat) (hN : 0 < N) (x : (⟨2, ![N, 5]⟩ : Shape).Idx → α) (w : IVec SE 32) : SE3.Idx → α :=
  fun i => x (ix2 (rowOf N hN (w (ix1 (i 0)))) ⟨(i 1).val, by have := idx2_lt1 i; omega⟩)

/-- The gather of three-column row slices at the start indices of `startIdx` is `gatherRows`. -/
theorem gather_startIdx {α : Type} (N : Nat) (hN : 0 < N)
    (wf : GatherDims.WF ⟨2, ![N, 5]⟩ SE2 SE3 [1] [0] [] [0, 1] [] 1 ![1, 3])
    (x : (⟨2, ![N, 5]⟩ : Shape).Idx → α) (w : IVec SE 32)
    (hb1 : SE.BroadcastsInDim SE1 (![0] : Fin 1 → Fin SE1.rank))
    (hb0 : S0.BroadcastsInDim SE1 (![] : Fin 0 → Fin SE1.rank)) (hc : Shape.Concatenates [SE1, SE1] SE2 1) :
    Host.gather (dims N 5 10000000 3 wf) x (startIdx w hb1 hb0 hc) = gatherRows N hN x w := by
  funext i
  obtain ⟨e, k, rfl⟩ : ∃ (e : Fin 10000000) (k : Fin 3), i = ix2 e k := ⟨i 0, i 1, eq_ix2 i⟩
  rw [gather_apply hN (by decide) wf x _ e k, startIdx_row, startIdx_col]
  show x _ = x _
  refine congrArg x (congrArg (ix2 _) (Fin.ext ?_))
  show min (0#32 : BitVec 32).toInt.toNat (5 - 3) + k.val = k.val
  have h0 : (0#32 : BitVec 32).toInt.toNat = 0 := by decide
  rw [h0]
  omega

/-- Row words that pick the same rows gather the same. -/
theorem gatherRows_congr {α : Type} (N : Nat) (hN : 0 < N) (x : (⟨2, ![N, 5]⟩ : Shape).Idx → α) (w w' : IVec SE 32)
    (h : ∀ i : SE.Idx, rowOf N hN (w i) = rowOf N hN (w' i)) : gatherRows N hN x w = gatherRows N hN x w' := by
  funext i
  unfold gatherRows
  rw [h]

/-! ## The two results -/

variable {F : FTy → Type} [FloatOps F]

/-- uv[e, k] = U[row_u e, k] · V[row_v e, k]. -/
def uvSpec (U : FVec F SU .f32) (V : FVec F SV .f32) (ui vi : IVec SE 32) : FVec F SE3 .f32 :=
  mulf (gatherRows 1000000 (by decide) U ui) (gatherRows 500000 (by decide) V vi)

/-- preds[e] = Σ_k uv[e, k], over the extended reals. -/
def predSpec (U : FVec Ideal SU .f32) (V : FVec Ideal SV .f32) (ui vi : IVec SE 32) : FVec Ideal SE .f32 :=
  fun i => ∑ k : Fin 3, uvSpec U V ui vi (ix2 (i 0) k)

end Cert.Spec

end
-- ==== Proof.RefSide.lean ====
/-
  The reference's two results are the specification's, on non-negative index words.

  The reference normalises each index word (a negative word has the table's extent added), builds the
  start-index pairs (word, 0), gathers three columns of the named row from each table, multiplies, and sums
  the three products from 0. On a non-negative word the normalisation is the identity and the gather's own
  clamp is the specification's row; the sum from 0 is the sum.
-/
import proofs.«418666_j46059229282319_4_alg».proof.Proof.Gen.ReferenceIdeal.Run
import proofs.«418666_j46059229282319_4_alg».proof.Proof.Gen.ReferenceIdeal.Read
import proofs.«418666_j46059229282319_4_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx
open Idealize.ShloMosaic.RowSliceGather Cert.IndexWords Cert.Spec

variable {F : FTy → Type} [FloatOps F]

/-- The reference's row words for `U`: each index word normalised against the extent 1000000. -/
theorem v4_eq (x2 : (⟨S10000000, .i32⟩ : BufTy).Contents (Elt F)) :
    val_main_v4 (F := F) x2 = fun i => wrapWord 1000000#32 (x2 i) := rfl

/-- Its start indices are those row words beside zeros. -/
theorem v7_eq (x2 : (⟨S10000000, .i32⟩ : BufTy).Contents (Elt F)) :
    val_main_v7 (F := F) x2 = startIdx (val_main_v4 (F := F) x2) bcast_S10000000_S10000000x1_0 bcast_S_S10000000x1
      concatenates_S10000000x1_S10000000x1_S10000000x2_d1 := rfl

/-- The same for `V`, against the extent 500000. -/
theorem v13_eq (x3 : (⟨S10000000, .i32⟩ : BufTy).Contents (Elt F)) :
    val_main_v13 (F := F) x3 = fun i => wrapWord 500000#32 (x3 i) := rfl

theorem v16_eq (x3 : (⟨S10000000, .i32⟩ : BufTy).Contents (Elt F)) :
    val_main_v16 (F := F) x3 = startIdx (val_main_v13 (F := F) x3) bcast_S10000000_S10000000x1_0 bcast_S_S10000000x1
      concatenates_S10000000x1_S10000000x1_S10000000x2_d1 := rfl

/-- The rows gathered from `U` are the specification's. -/
theorem v8_eq (x0 : (⟨S1000000x5, .f32⟩ : BufTy).Contents (Elt F)) (x2 : (⟨S10000000, .i32⟩ : BufTy).Contents (Elt F))
    (h2 : ∀ i : S10000000.Idx, IntOp.cmpi .sge (x2 i) 0#32 = 1#1) :
    val_main_v8 (F := F) x0 x2 = gatherRows 1000000 (by decide) x0 x2 := by
  unfold val_main_v8
  rw [v7_eq]
  show Host.gather (dims 1000000 5 10000000 3 gather_S1000000x5_S10000000x2_S10000000x3_1_0_n_n_01_1_13_wf) x0 _ = _
  rw [gather_startIdx 1000000 (by decide), v4_eq]
  exact gatherRows_congr _ _ _ _ _ (fun i =>
    (rows_agree 1000000 (by decide) 1000000#32 999999#32 (x2 i) (by decide) (h2 i)).2)

/-- The rows gathered from `V` are the specification's. -/
theorem v17_eq (x1 : (⟨S500000x5, .f32⟩ : BufTy).Contents (Elt F)) (x3 : (⟨S10000000, .i32⟩ : BufTy).Contents (Elt F))
    (h3 : ∀ i : S10000000.Idx, IntOp.cmpi .sge (x3 i) 0#32 = 1#1) :
    val_main_v17 (F := F) x1 x3 = gatherRows 500000 (by decide) x1 x3 := by
  unfold val_main_v17
  rw [v16_eq]
  show Host.gather (dims 500000 5 10000000 3 gather_S500000x5_S10000000x2_S10000000x3_1_0_n_n_01_1_13_wf) x1 _ = _
  rw [gather_startIdx 500000 (by decide), v13_eq]
  exact gatherRows_congr _ _ _ _ _ (fun i =>
    (rows_agree 500000 (by decide) 500000#32 499999#32 (x3 i) (by decide) (h3 i)).2)

/-- The reference's first result is `uvSpec`. -/
theorem uv_eq (x0 : (⟨S1000000x5, .f32⟩ : BufTy).Contents (Elt F)) (x1 : (⟨S500000x5, .f32⟩ : BufTy).Contents (Elt F))
    (x2 x3 : (⟨S10000000, .i32⟩ : BufTy).Contents (Elt F))
    (h2 : ∀ i : S10000000.Idx, IntOp.cmpi .sge (x2 i) 0#32 = 1#1)
    (h3 : ∀ i : S10000000.Idx, IntOp.cmpi .sge (x3 i) 0#32 = 1#1) :
    val_main_v18 (F := F) x0 x1 x2 x3 = uvSpec x0 x1 x2 x3 := by
  unfold val_main_v18 uvSpec
  rw [v8_eq x0 x2 h2, v17_eq x1 x3 h3]

/-- The reference's second result is `predSpec`: the host's sum from the initial value 0 over the three products. -/
theorem pred_eq (x0 : (⟨S1000000x5, .f32⟩ : BufTy).Contents (Elt Ideal)) (x1 : (⟨S500000x5, .f32⟩ : BufTy).Contents (Elt Ideal))
    (x2 x3 : (⟨S10000000, .i32⟩ : BufTy).Contents (Elt Ideal))
    (h2 : ∀ i : S10000000.Idx, IntOp.cmpi .sge (x2 i) 0#32 = 1#1)
    (h3 : ∀ i : S10000000.Idx, IntOp.cmpi .sge (x3 i) 0#32 = 1#1) :
    val_main_v19 (F := Ideal) x0 x1 x2 x3 = predSpec x0 x1 x2 x3 := by
  funext i
  rw [val_main_v19_apply, val_main_cst_apply, uv_eq x0 x1 x2 x3 h2 h3]
  have hz : (FloatOps.ofBits (F := Ideal) .f32 0x00000000#32) = (0 : EReal) := Ideal.ofBits_zero_f32
  rw [hz, zero_add]
  unfold predSpec
  refine Finset.sum_congr rfl fun k _ => congrArg _ (funext fun a => ?_)
  match a with
  | ⟨0, _⟩ => rfl
  | ⟨1, _⟩ => rfl

end Cert.ReferenceIdeal.RefValue

end
-- ==== Proof.KernelBlocks.lean ====
/-
  The kernel region's two result arrays, as whole-array functions of the two planar feature arrays it is
  launched on.

  The region runs 625 grid points. Point `t` loads columns `16000·t … 16000·t + 15999` of the two `[3, E]`
  feature arrays, multiplies them entry by entry, stores the products as the same columns of the first
  result, and stores the sum of each column's three products as the same columns of the second result
  (`[1, E]`). The blocks tile the arrays (column `e` belongs to point `e / 16000`), so after the run the first
  result is the entrywise product of the two feature arrays and the second is its column sums.
-/
import proofs.«418666_j46059229282319_4_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem hz : (![0, 0] : Fin 2 → Nat) = fun _ => 0 := funext fun a => by fin_cases a <;> rfl

/-! ## The two whole-array functions -/

/-- The product of two extended reals, as the float multiplication reads at the ideal instance. -/
abbrev mulE (x y : Elt Ideal .f32) : Elt Ideal .f32 := FloatOps.mulf (F := Ideal) (φ := .f32) x y

/-- Entry by entry, the product of two `[3, E]` arrays. -/
def prodArr (a0 a1 : S3x10000000.Idx → Elt Ideal .f32) : S3x10000000.Idx → Elt Ideal .f32 :=
  fun i => mulE (a0 i) (a1 i)

/-- Column by column, the sum of the three products, laid out `[1, E]`. -/
def colSumArr (a0 a1 : S3x10000000.Idx → Elt Ideal .f32) : S1x10000000.Idx → Elt Ideal .f32 :=
  fun i => ∑ k : Fin 3, mulE (a0 (ix2 k (⟨(i 1).val, idx2_lt1 i⟩ : Fin 10000000)))
    (a1 (ix2 k (⟨(i 1).val, idx2_lt1 i⟩ : Fin 10000000)))

/-! ## The body's two stored values, read at an entry of a block -/

/-- The first stored value is the entrywise product of the two loaded blocks (the shape casts are to the same shape). -/
theorem pay1_eq (x0 x1 : Vec Ideal S3x16000 .f32) : k0_pay1 x0 x1 = mulf x0 x1 := by
  unfold k0_pay1
  rw [shapeCast_self, shapeCast_self]

/-- A sum over the three rows of a `[3, 16000]` block, read at column `r`. -/
theorem rowsum_apply (src : FVec Ideal S3x16000 .f32) (h : S3x16000.Reduces [0] S16000) (hφ : FKind.Formats .f32)
    (hacc : (0x00000000#32 : BitVec 32) = FKind.add.neutral .f32 hφ) (r : Fin 16000) :
    multiReduction .add [0] S16000 src 0x00000000#32 h hφ hacc (ix1 r) = ∑ k : Fin 3, src (ix2 k r) := by
  refine (Ideal.multiReduction_add_single src 0x00000000#32 h hφ hacc (ix1 r)).trans ?_
  refine Finset.sum_congr rfl fun k _ => congrArg src (funext fun a => Fin.ext ?_)
  match a with
  | ⟨0, _⟩ => rfl
  | ⟨1, _⟩ => rfl

/-- The second stored value at column `r` of the `[1, 16000]` block: the three products of that column, summed. -/
theorem pay2_apply (x0 x1 : Vec Ideal S3x16000 .f32) (r : Fin 16000) :
    k0_pay2 x0 x1 (ix2 (0 : Fin 1) r) = ∑ k : Fin 3, mulE (x0 (ix2 k r)) (x1 (ix2 k r)) := by
  unfold k0_pay2
  refine (shapeCast_addUnit_apply (![16000] : Fin 1 → Nat) _ _ (ix2 (0 : Fin 1) r)).trans ?_
  have e : (fun a : Fin 1 => (ix2 (0 : Fin 1) r : (⟨2, ![1, 16000]⟩ : Shape).Idx) a.succ) = (ix1 r : (⟨1, ![16000]⟩ : Shape).Idx) :=
    funext fun a => by match a with | ⟨0, _⟩ => rfl
  rw [e]
  refine (rowsum_apply _ _ _ _ r).trans ?_
  rw [pay1_eq]
  rfl

/-! ## The printed index maps, decided over the 625 points -/

/-- Every window's block index at point `t` is `(0, t)`: the whole first axis, the `t`-th stretch of columns. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

/-! ## The first result: the products -/

/-- WHAT POINT `t` WRITES BACK to the first result is block `t` of the product of the feature arrays the region finds. -/
theorem flushed2_eq (c : Dev nD) (t : Fin cfg0.N) :
    (dats m 0 c).flushed 2 t
      = ((cfg0.win 2).blk t).view.read (Elt Ideal) (prodArr (V m c main_v20) (V m c main_v21)) := by
  show (cfg0.win 2).cut (grid0.coords t) ((dats m 0 c).after 2 t) = _
  rw [after0_2]
  unfold out0_2
  rw [View.canon_unit_zero hz]
  simp only [View.ld_unit_zero (S := S3x16000) hz]
  rw [pay1_eq]
  obtain ⟨e00, e01, e10, e11, e20, e21, -, -⟩ := idx_facts t
  funext j
  show mulE (V m c main_v20 (((cfg0.win 0).blk t).view.emb j)) (V m c main_v21 (((cfg0.win 1).blk t).view.emb j))
    = mulE (V m c main_v20 (((cfg0.win 2).blk t).view.emb j)) (V m c main_v21 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 3 + 1 * (j 0).val = win0_2.index t (0 : Fin 2) * 3 + 1 * (j 0).val; omega
    | ⟨1, _⟩ => show win0_0.index t (1 : Fin 2) * 16000 + 1 * (j 1).val = win0_2.index t (1 : Fin 2) * 16000 + 1 * (j 1).val; omega
  have h1 : ((cfg0.win 1).blk t).view.emb j = ((cfg0.win 2).blk t).view.emb j := by
    funext a; apply Fin.ext
    match a with
    | ⟨0, _⟩ => show win0_1.index t (0 : Fin 2) * 3 + 1 * (j 0).val = win0_2.index t (0 : Fin 2) * 3 + 1 * (j 0).val; omega
    | ⟨1, _⟩ => show win0_1.index t (1 : Fin 2) * 16000 + 1 * (j 1).val = win0_2.index t (1 : Fin 2) * 16000 + 1 * (j 1).val; omega
  rw [h0, h1]

/-- An index of the first result is in point `t`'s block iff each coordinate is in the block's range on its axis. -/
theorem mem_blk2 (t : Fin cfg0.N) (i : S3x10000000.Idx) :
    i ∈ ((cfg0.win 2).blk t).view.set ↔ ∀ a : Fin 2, win0_2.index t a * S3x16000.size a ≤ (i a).val
      ∧ (i a).val < win0_2.index t a * S3x16000.size a + S3x16000.size a := by
  show i ∈ ((View.whole main_v22_0).slice (win0_2.rect t)).set ↔ _
  rw [View.set_slice_whole, Rect.mem_set_unit]
  exact Iff.rfl

/-- Every entry of the first result is in the block of the point its column names. -/
theorem cover2 (i : S3x10000000.Idx) :
    ∃ t : Fin cfg0.N, (cfg0.win 2).flush t = true ∧ i ∈ ((cfg0.win 2).blk t).view.set := by
  have hi0 : (i 0).val < 3 := idx2_lt0 i
  have hi1 : (i 1).val < 10000000 := idx2_lt1 i
  have hN : grid0.N = 625 := N_0
  let t : Fin cfg0.N := ⟨(i 1).val / 16000, by show (i 1).val / 16000 < grid0.N; rw [hN]; omega⟩
  obtain ⟨-, -, -, -, e20, e21, -, -⟩ := idx_facts t
  have ht : t.val = (i 1).val / 16000 := rfl
  refine ⟨t, flush0_2 t, ?_⟩
  rw [mem_blk2]
  intro a
  match a with
  | ⟨0, _⟩ => show win0_2.index t (0 : Fin 2) * 3 ≤ (i 0).val ∧ (i 0).val < win0_2.index t (0 : Fin 2) * 3 + 3; omega
  | ⟨1, _⟩ => show win0_2.index t (1 : Fin 2) * 16000 ≤ (i 1).val ∧ (i 1).val < win0_2.index t (1 : Fin 2) * 16000 + 16000; omega

/-- THE FIRST RESULT after the run: the product of the two feature arrays. -/
theorem final2 (c : Dev nD) :
    (dats m 0 c).arrAt 2 cfg0.N = prodArr (V m c main_v20) (V m c main_v21) :=
  (dats m 0 c).arrAt_eq_of_cover 2 (prodArr (V m c main_v20) (V m c main_v21)) (fun t _ => flushed2_eq m c t) cover2

/-! ## The second result: the column sums -/

/-- WHAT POINT `t` WRITES BACK to the second result is block `t` of the column sums. -/
theorem flushed3_eq (c : Dev nD) (t : Fin cfg0.N) :
    (dats m 0 c).flushed 3 t
      = ((cfg0.win 3).blk t).view.read (Elt Ideal) (colSumArr (V m c main_v20) (V m c main_v21)) := by
  show (cfg0.win 3).cut (grid0.coords t) ((dats m 0 c).after 3 t) = _
  rw [after0_3]
  unfold out0_3
  rw [View.canon_unit_zero hz]
  simp only [View.ld_unit_zero (S := S3x16000) hz]
  obtain ⟨e00, e01, e10, e11, -, -, e30, e31⟩ := idx_facts t
  funext j
  obtain ⟨q, r, rfl⟩ : ∃ (q : Fin 1) (r : Fin 16000), j = ix2 q r := ⟨j 0, j 1, eq_ix2 j⟩
  obtain rfl : q = 0 := Subsingleton.elim _ _
  refine (pay2_apply (iblk m c 0 t) (iblk m c 1 t) r).trans ?_
  show (∑ k : Fin 3, mulE (V m c main_v20 (((cfg0.win 0).blk t).view.emb (ix2 k r)))
      (V m c main_v21 (((cfg0.win 1).blk t).view.emb (ix2 k r))))
    = colSumArr (V m c main_v20) (V m c main_v21) (((cfg0.win 3).blk t).view.emb (ix2 (0 : Fin 1) r))
  unfold colSumArr
  refine Finset.sum_congr rfl fun k _ => ?_
  have h0 : ((cfg0.win 0).blk t).view.emb (ix2 k r)
      = ix2 k (⟨((((cfg0.win 3).blk t).view.emb (ix2 (0 : Fin 1) r)) 1).val, idx2_lt1 _⟩ : Fin 10000000) := by
    funext a; apply Fin.ext
    match a with
    | ⟨0, _⟩ => show win0_0.index t (0 : Fin 2) * 3 + 1 * k.val = k.val; omega
    | ⟨1, _⟩ => show win0_0.index t (1 : Fin 2) * 16000 + 1 * r.val = win0_3.index t (1 : Fin 2) * 16000 + 1 * r.val; omega
  have h1 : ((cfg0.win 1).blk t).view.emb (ix2 k r)
      = ix2 k (⟨((((cfg0.win 3).blk t).view.emb (ix2 (0 : Fin 1) r)) 1).val, idx2_lt1 _⟩ : Fin 10000000) := by
    funext a; apply Fin.ext
    match a with
    | ⟨0, _⟩ => show win0_1.index t (0 : Fin 2) * 3 + 1 * k.val = k.val; omega
    | ⟨1, _⟩ => show win0_1.index t (1 : Fin 2) * 16000 + 1 * r.val = win0_3.index t (1 : Fin 2) * 16000 + 1 * r.val; omega
  rw [h0, h1]

/-- An index of the second result is in point `t`'s block iff each coordinate is in the block's range on its axis. -/
theorem mem_blk3 (t : Fin cfg0.N) (i : S1x10000000.Idx) :
    i ∈ ((cfg0.win 3).blk t).view.set ↔ ∀ a : Fin 2, win0_3.index t a * S1x16000.size a ≤ (i a).val
      ∧ (i a).val < win0_3.index t a * S1x16000.size a + S1x16000.size a := by
  show i ∈ ((View.whole main_v22_1).slice (win0_3.rect t)).set ↔ _
  rw [View.set_slice_whole, Rect.mem_set_unit]
  exact Iff.rfl

/-- Every entry of the second result is in the block of the point its column names. -/
theorem cover3 (i : S1x10000000.Idx) :
    ∃ t : Fin cfg0.N, (cfg0.win 3).flush t = true ∧ i ∈ ((cfg0.win 3).blk t).view.set := by
  have hi0 : (i 0).val < 1 := idx2_lt0 i
  have hi1 : (i 1).val < 10000000 := idx2_lt1 i
  have hN : grid0.N = 625 := N_0
  let t : Fin cfg0.N := ⟨(i 1).val / 16000, by show (i 1).val / 16000 < grid0.N; rw [hN]; omega⟩
  obtain ⟨-, -, -, -, -, -, e30, e31⟩ := idx_facts t
  have ht : t.val = (i 1).val / 16000 := rfl
  refine ⟨t, flush0_3 t, ?_⟩
  rw [mem_blk3]
  intro a
  match a with
  | ⟨0, _⟩ => show win0_3.index t (0 : Fin 2) * 1 ≤ (i 0).val ∧ (i 0).val < win0_3.index t (0 : Fin 2) * 1 + 1; omega
  | ⟨1, _⟩ => show win0_3.index t (1 : Fin 2) * 16000 ≤ (i 1).val ∧ (i 1).val < win0_3.index t (1 : Fin 2) * 16000 + 16000; omega

/-- THE SECOND RESULT after the run: the column sums of the product of the two feature arrays. -/
theorem final3 (c : Dev nD) :
    (dats m 0 c).arrAt 3 cfg0.N = colSumArr (V m c main_v20) (V m c main_v21) :=
  (dats m 0 c).arrAt_eq_of_cover 3 (colSumArr (V m c main_v20) (V m c main_v21)) (fun t _ => flushed3_eq m c t) cover3

end Cert.KernelIdeal.KValue

end
-- ==== Proof.KernelHost.lean ====
/-
  The host lines around the kernel region.

  BEFORE the region the program clips each index word into the table's rows, normalises it, builds the
  start-index pairs (word, 0), gathers three columns of each named row, and transposes the `[E, 3]` result
  to the planar `[3, E]` layout the region is launched on: this module names those two planar arrays as
  terms of the argument arrays. AFTER the region it transposes the first result back to `[E, 3]` and drops
  the unit axis of the second: this module reads those two lines over the region's result arrays.
-/
import proofs.«418666_j46059229282319_4_alg».proof.Proof.Gen.KernelIdeal.Frame
import proofs.«418666_j46059229282319_4_alg».proof.Proof.Spec
import Idealize.ShloMosaic.Lib.StableHlo.Run

set_option maxRecDepth 16384

noncomputable section

namespace Cert.KernelIdeal.KHost

open Cert.KernelIdeal Cert.KernelIdeal.Gen Idealize.ShloMosaic Idealize.ShloMosaic.TcCoe Idealize.SL.Sem
open Idealize.ShloMosaic.StableHlo Cert.IndexWords Cert.Spec

variable {F : FTy → Type} [FloatOps F]
variable (m : (ℓ : Loc nD τ sig) → Buf (Elt F) ℓ)

/-- The kernel's row words for `U`: each index word clipped into `[0, 999999]`, then normalised. -/
def rowWordsU (c : Dev nD) : IVec SE 32 :=
  fun i => wrapWord 1000000#32 (clipWord 999999#32 (m ((c : Thread nD τ).loc main_arg2) i))

/-- The kernel's row words for `V`: each index word clipped into `[0, 499999]`, then normalised. -/
def rowWordsV (c : Dev nD) : IVec SE 32 :=
  fun i => wrapWord 500000#32 (clipWord 499999#32 (m ((c : Thread nD τ).loc main_arg3) i))

set_option maxHeartbeats 4000000 in
/-- The first planar feature array the region finds: the rows of `U` gathered at the kernel's row words, transposed. -/
theorem v20_eq (c : Dev nD) :
    (V m c main_v20 : S3x10000000.Idx → Elt F .f32)
      = transpose S3x10000000 [1, 0]
          (Host.gather gather_S1000000x5_S10000000x2_S10000000x3_1_0_n_n_01_1_13 (m ((c : Thread nD τ).loc main_arg0))
            (startIdx (rowWordsU m c) bcast_S10000000_S10000000x1_0 bcast_S_S10000000x1
              concatenates_S10000000x1_S10000000x1_S10000000x2_d1))
          transposes_S10000000x3_S3x10000000_1_0 := by
  dsimp only [V, V0]
  simp only [hostOps0, hostOps0_1, hostOps0_2, hostOps0_3, hostOps0_4, List.flatten_cons, List.flatten_nil,
    List.append_nil, List.cons_append, List.nil_append]
  after_results_simp
  rfl

set_option maxHeartbeats 4000000 in
/-- The second planar feature array the region finds: the rows of `V` gathered at the kernel's row words, transposed. -/
theorem v21_eq (c : Dev nD) :
    (V m c main_v21 : S3x10000000.Idx → Elt F .f32)
      = transpose S3x10000000 [1, 0]
          (Host.gather gather_S500000x5_S10000000x2_S10000000x3_1_0_n_n_01_1_13 (m ((c : Thread nD τ).loc main_arg1))
            (startIdx (rowWordsV m c) bcast_S10000000_S10000000x1_0 bcast_S_S10000000x1
              concatenates_S10000000x1_S10000000x1_S10000000x2_d1))
          transposes_S10000000x3_S3x10000000_1_0 := by
  dsimp only [V, V0]
  simp only [hostOps0, hostOps0_1, hostOps0_2, hostOps0_3, hostOps0_4, List.flatten_cons, List.flatten_nil,
    List.append_nil, List.cons_append, List.nil_append]
  after_results_simp
  rfl

/-- The program's first result: the region's first result array, transposed back to `[E, 3]`. -/
theorem tail_v23 (c : Dev nD) :
    Pipeline.afterTail₀ cfgs (dats m) 0 (V0 m) [hostOps1] c main_v23
      = transpose S10000000x3 [1, 0] ((dats m 0 c).arrAt 2 cfg0.N) transposes_S3x10000000_S10000000x3_1_0 := by
  unfold Pipeline.afterTail₀
  show StableHlo.after hostOps1 _ (Proc.devRef .tc main_v23) = _
  after_results
  exact congrArg (fun x => transpose S10000000x3 [1, 0] x transposes_S3x10000000_S10000000x3_1_0)
    (Pipeline.withArrays_arr spec0 launch0.win.arr_inj c _ _ 2)

/-- The program's second result: the region's second result array with its unit axis dropped. -/
theorem tail_v24 (c : Dev nD) :
    Pipeline.afterTail₀ cfgs (dats m) 0 (V0 m) [hostOps1] c main_v24
      = shapeCast S10000000 ((dats m 0 c).arrAt 3 cfg0.N) shapeCasts_S1x10000000_S10000000 := by
  unfold Pipeline.afterTail₀
  show StableHlo.after hostOps1 _ (Proc.devRef .tc main_v24) = _
  after_results
  exact congrArg (fun x => shapeCast S10000000 x shapeCasts_S1x10000000_S10000000)
    (Pipeline.withArrays_arr spec0 launch0.win.arr_inj c _ _ 3)

end Cert.KernelIdeal.KHost

end
-- ==== Proof.KernelValue.lean ====
/-
  The kernel program's two results are the specification's, on non-negative index words.

  Chain: the program's first result is the transpose of the region's product array; the region's product
  array is the entrywise product of the two planar feature arrays; each planar feature array is the transpose
  of a table's rows gathered at the kernel's row words (clip, normalise, clamp), which on a non-negative word
  name the specification's row. The two transposes cancel index by index. The second result is the column
  sums of the same products with the unit axis dropped: the specification's sum over the three products.
-/
import proofs.«418666_j46059229282319_4_alg».proof.Proof.KernelBlocks
import proofs.«418666_j46059229282319_4_alg».proof.Proof.KernelHost

set_option maxRecDepth 16384

noncomputable section

open scoped BigOperators

namespace Cert.KernelIdeal.KValue

open Cert.KernelIdeal Cert.KernelIdeal.Gen Cert.KernelIdeal.KHost Idealize.ShloMosaic Idealize.ShloMosaic.TcCoe Idealize.SL.Sem
open Idealize.ShloMosaic.ValueIdx Idealize.ShloMosaic.RowSliceGather Cert.IndexWords Cert.Spec

variable (m : (ℓ : Loc nD τ sig) → Buf (Elt Ideal) ℓ)

/-- Entry `(k, e)` of the first planar feature array is entry `(e, k)` of the specification's rows of `U`. -/
theorem featU (c : Dev nD)
    (hu : ∀ i : S10000000.Idx, IntOp.cmpi .sge (m ((c : Thread nD τ).loc main_arg2) i) 0#32 = 1#1)
    (e : Fin 10000000) (k : Fin 3) :
    (V m c main_v20 : S3x10000000.Idx → Elt Ideal .f32) (ix2 k e)
      = gatherRows 1000000 (by decide) (m ((c : Thread nD τ).loc main_arg0)) (m ((c : Thread nD τ).loc main_arg2)) (ix2 e k) := by
  rw [v20_eq m c]
  refine (transpose_apply [1, 0] _ transposes_S10000000x3_S3x10000000_1_0 (ix2 k e) (ix2 e k)
    (fun b => by match b with | ⟨0, _⟩ => rfl | ⟨1, _⟩ => rfl)).trans ?_
  show Host.gather (dims 1000000 5 10000000 3 gather_S1000000x5_S10000000x2_S10000000x3_1_0_n_n_01_1_13_wf) _ _ _ = _
  rw [gather_startIdx 1000000 (by decide)]
  exact congrFun (gatherRows_congr _ _ _ _ _ (fun i =>
    (rows_agree 1000000 (by decide) 1000000#32 999999#32 _ (by decide) (hu i)).1)) _

/-- Entry `(k, e)` of the second planar feature array is entry `(e, k)` of the specification's rows of `V`. -/
theorem featV (c : Dev nD)
    (hv : ∀ i : S10000000.Idx, IntOp.cmpi .sge (m ((c : Thread nD τ).loc main_arg3) i) 0#32 = 1#1)
    (e : Fin 10000000) (k : Fin 3) :
    (V m c main_v21 : S3x10000000.Idx → Elt Ideal .f32) (ix2 k e)
      = gatherRows 500000 (by decide) (m ((c : Thread nD τ).loc main_arg1)) (m ((c : Thread nD τ).loc main_arg3)) (ix2 e k) := by
  rw [v21_eq m c]
  refine (transpose_apply [1, 0] _ transposes_S10000000x3_S3x10000000_1_0 (ix2 k e) (ix2 e k)
    (fun b => by match b with | ⟨0, _⟩ => rfl | ⟨1, _⟩ => rfl)).trans ?_
  show Host.gather (dims 500000 5 10000000 3 gather_S500000x5_S10000000x2_S10000000x3_1_0_n_n_01_1_13_wf) _ _ _ = _
  rw [gather_startIdx 500000 (by decide)]
  exact congrFun (gatherRows_congr _ _ _ _ _ (fun i =>
    (rows_agree 500000 (by decide) 500000#32 499999#32 _ (by decide) (hv i)).1)) _

/-- One product of the region, at `(k, e)`, is the specification's `uv[e, k]`. -/
theorem prod_entry (c : Dev nD)
    (hu : ∀ i : S10000000.Idx, IntOp.cmpi .sge (m ((c : Thread nD τ).loc main_arg2) i) 0#32 = 1#1)
    (hv : ∀ i : S10000000.Idx, IntOp.cmpi .sge (m ((c : Thread nD τ).loc main_arg3) i) 0#32 = 1#1)
    (e : Fin 10000000) (k : Fin 3) :
    mulE ((V m c main_v20 : S3x10000000.Idx → Elt Ideal .f32) (ix2 k e)) ((V m c main_v21 : S3x10000000.Idx → Elt Ideal .f32) (ix2 k e))
      = uvSpec (F := Ideal) (m ((c : Thread nD τ).loc main_arg0)) (m ((c : Thread nD τ).loc main_arg1))
          (m ((c : Thread nD τ).loc main_arg2)) (m ((c : Thread nD τ).loc main_arg3)) (ix2 e k) := by
  rw [featU m c hu e k, featV m c hv e k]
  rfl

/-- THE FIRST RESULT of the kernel program is `uvSpec` of the argument arrays. -/
theorem uv_result (c : Dev nD)
    (hu : ∀ i : S10000000.Idx, IntOp.cmpi .sge (m ((c : Thread nD τ).loc main_arg2) i) 0#32 = 1#1)
    (hv : ∀ i : S10000000.Idx, IntOp.cmpi .sge (m ((c : Thread nD τ).loc main_arg3) i) 0#32 = 1#1) :
    (Pipeline.afterTail₀ cfgs (dats m) 0 (V0 m) [hostOps1] c main_v23 : S10000000x3.Idx → Elt Ideal .f32)
      = uvSpec (F := Ideal) (m ((c : Thread nD τ).loc main_arg0)) (m ((c : Thread nD τ).loc main_arg1))
          (m ((c : Thread nD τ).loc main_arg2)) (m ((c : Thread nD τ).loc main_arg3)) := by
  rw [tail_v23, final2]
  funext i
  obtain ⟨e, k, rfl⟩ : ∃ (e : Fin 10000000) (k : Fin 3), i = ix2 e k := ⟨i 0, i 1, eq_ix2 i⟩
  refine (transpose_apply [1, 0] _ transposes_S3x10000000_S10000000x3_1_0 (ix2 e k) (ix2 k e)
    (fun b => by match b with | ⟨0, _⟩ => rfl | ⟨1, _⟩ => rfl)).trans ?_
  exact prod_entry m c hu hv e k

/-- THE SECOND RESULT of the kernel program is `predSpec` of the argument arrays. -/
theorem pred_result (c : Dev nD)
    (hu : ∀ i : S10000000.Idx, IntOp.cmpi .sge (m ((c : Thread nD τ).loc main_arg2) i) 0#32 = 1#1)
    (hv : ∀ i : S10000000.Idx, IntOp.cmpi .sge (m ((c : Thread nD τ).loc main_arg3) i) 0#32 = 1#1) :
    (Pipeline.afterTail₀ cfgs (dats m) 0 (V0 m) [hostOps1] c main_v24 : S10000000.Idx → Elt Ideal .f32)
      = predSpec (m ((c : Thread nD τ).loc main_arg0)) (m ((c : Thread nD τ).loc main_arg1))
          (m ((c : Thread nD τ).loc main_arg2)) (m ((c : Thread nD τ).loc main_arg3)) := by
  rw [tail_v24, final3]
  funext i
  obtain ⟨e, rfl⟩ : ∃ e : Fin 10000000, i = ix1 e := ⟨i 0, eq_ix1 i⟩
  refine (shapeCast_dropUnit_apply (![10000000] : Fin 1 → Nat) _ shapeCasts_S1x10000000_S10000000 (ix1 e)).trans ?_
  have hcons : (Fin.cons ⟨0, Nat.one_pos⟩ (ix1 e : (⟨1, ![10000000]⟩ : Shape).Idx) : (⟨2, ![1, 10000000]⟩ : Shape).Idx)
      = ix2 (0 : Fin 1) e := funext fun a => by match a with | ⟨0, _⟩ => rfl | ⟨1, _⟩ => rfl
  rw [hcons]
  show (∑ k : Fin 3, mulE ((V m c main_v20 : S3x10000000.Idx → Elt Ideal .f32) (ix2 k e))
      ((V m c main_v21 : S3x10000000.Idx → Elt Ideal .f32) (ix2 k e))) = _
  exact Finset.sum_congr rfl fun k _ => prod_entry m c hu hv e k

/-- THE KERNEL PROGRAM'S RUN, READ: it terminates with its two results at the specification's functions of the
    argument arrays, the arguments unchanged, wherever both index arrays hold non-negative words. -/
theorem run (ρ : Dev nD → PrngReg)
    (hu : ∀ (c : Dev nD) (i : S10000000.Idx), IntOp.cmpi .sge (m ((c : Thread nD τ).loc main_arg2) i) 0#32 = 1#1)
    (hv : ∀ (c : Dev nD) (i : S10000000.Idx), IntOp.cmpi .sge (m ((c : Thread nD τ).loc main_arg3) i) 0#32 = 1#1) :
    θ_run defs (onTc (τ := τ) (main (F := Ideal))) ⟨m, fun _ => 0, ρ⟩ (fun r => ∀ c : Dev nD,
      r.2.mem ((c : Thread nD τ).loc main_v23)
        = uvSpec (F := Ideal) (m ((c : Thread nD τ).loc main_arg0)) (m ((c : Thread nD τ).loc main_arg1))
            (m ((c : Thread nD τ).loc main_arg2)) (m ((c : Thread nD τ).loc main_arg3))
      ∧ r.2.mem ((c : Thread nD τ).loc main_v24)
        = predSpec (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun r h c =>
    ⟨((h c).2 main_v23 (Pipeline.mem_restRefs_of main_v23 (by decide) (by decide))).trans (uv_result m c (hu c) (hv c)),
      ((h c).2 main_v24 (Pipeline.mem_restRefs_of main_v24 (by decide) (by decide))).trans (pred_result m c (hu c) (hv c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KValue

end
-- ==== Proof.lean ====
/-
  The kernel: per pair `e`, three latent dimensions of a row of `U` and of a row of `V`, multiplied entry by
  entry (`uv[e, k]`) and summed (`preds[e]`). The kernel program clips the index words, gathers and transposes
  on the host, multiplies and sums column blocks in a 625-point grid, and transposes back; the reference
  gathers, multiplies and sums in place.

  The statement carries one added precondition: every index word is non-negative. Under it both programs
  read row `min(word, last row)` of each table (Proof/IndexWords.lean), so both compute the two functions of
  Proof/Spec.lean: the reference by Proof/RefSide.lean, the kernel program by Proof/KernelValue.lean (the
  region's arrays in Proof/KernelBlocks.lean, the host lines around it in Proof/KernelHost.lean). The
  sums agree because addition of extended reals is commutative and associative and the reference's initial
  value is 0; no finiteness is used. The three frames are the generated ones; the ideal pass rewrote nothing.
-/
import proofs.«418666_j46059229282319_4_alg».proof.Defs
import proofs.«418666_j46059229282319_4_alg».proof.Proof.Gen.Kernel
import proofs.«418666_j46059229282319_4_alg».proof.Proof.Gen.Kernel.Skeleton
import proofs.«418666_j46059229282319_4_alg».proof.Proof.Gen.Kernel.Launch
import proofs.«418666_j46059229282319_4_alg».proof.Proof.Gen.Kernel.Points
import proofs.«418666_j46059229282319_4_alg».proof.Proof.Gen.Kernel.Frame
import proofs.«418666_j46059229282319_4_alg».proof.Proof.Gen.KernelIdeal
import proofs.«418666_j46059229282319_4_alg».proof.Proof.Gen.KernelIdeal.Skeleton
import proofs.«418666_j46059229282319_4_alg».proof.Proof.Gen.KernelIdeal.Launch
import proofs.«418666_j46059229282319_4_alg».proof.Proof.Gen.KernelIdeal.Points
import proofs.«418666_j46059229282319_4_alg».proof.Proof.Gen.KernelIdeal.Frame
import proofs.«418666_j46059229282319_4_alg».proof.Proof.Gen.ReferenceIdeal
import proofs.«418666_j46059229282319_4_alg».proof.Proof.Gen.ReferenceIdeal.Run
import proofs.«418666_j46059229282319_4_alg».proof.Proof.Gen.ReferenceIdeal.Read
import proofs.«418666_j46059229282319_4_alg».proof.Proof.Gen.Pre_finite_inputs
import proofs.«418666_j46059229282319_4_alg».proof.Proof.PreDecode
import proofs.«418666_j46059229282319_4_alg».proof.Proof.RefSide
import proofs.«418666_j46059229282319_4_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both idealized programs end with `uvSpec` and `predSpec` of arguments that agree and whose index words the
    precondition makes non-negative. -/
theorem algebraic : Cert.algebraic_KernelIdeal_ReferenceIdeal := by
  intro m ρ m' ρ' hpre hagree
  have hidx := fun c : Dev Cert.KernelIdeal.nD => Cert.PreDecode.idx_nonneg (F := Ideal) _ _ _ _ (hpre c)
  refine ⟨_, _, Cert.KernelIdeal.KValue.run m ρ (fun c => (hidx c).1) (fun c => (hidx c).2), ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v18_eq, (hagree c).1, (hagree c).2.1, (hagree c).2.2.1, (hagree c).2.2.2]
    exact Cert.ReferenceIdeal.RefValue.uv_eq _ _ _ _ (hidx c).1 (hidx c).2
  · rw [(h c).2.1, Cert.ReferenceIdeal.Read.val_main_v19_eq, (hagree c).1, (hagree c).2.1, (hagree c).2.2.1, (hagree c).2.2.2]
    exact Cert.ReferenceIdeal.RefValue.pred_eq _ _ _ _ (hidx c).1 (hidx c).2

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
